-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S8192x4096 .f32) (main_arg1 : FVec F S4096x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S8192x4096 : Shape := ⟨2, ![8192, 4096]⟩
abbrev S4096x2048 : Shape := ⟨2, ![4096, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  natLt_1_32 : 1 < 32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x2048.size a
  hwx0_1 : ∀ i : grid0.Coords, EltTy.bits .f32 = 32 ∨ (Rect.block (s := S4096x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x2048.size a
  hwx0_2 : ∀ i : grid0.Coords, EltTy.bits .f32 = 32 ∨ (Rect.block (s := S8192x2048) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S_ : Shape := ⟨0, ![]⟩
abbrev S8192x2048 : Shape := ⟨2, ![8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .i1⟩
  | .hbm, ⟨5, _⟩ => ⟨S4096x2048, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .i1⟩
  | .hbm, ⟨13, _⟩ => ⟨S_, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S_S8192x4096 : S_.BroadcastsInDim S8192x4096 (![] : Fin 0 → Fin S8192x4096.rank)
  bcast_S_S8192x2048 : S_.BroadcastsInDim S8192x2048 (![] : Fin 0 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.Pieces.lean ====
/-
  What each control case of the body leaves behind, as values of the body's stored terms.
  At the first K-block of a tile (case A) the accumulator is zeroed, read back, and left at
  `update x w zero`; at the middle K-blocks (case B) it is left at `update x w acc` of what the point before left;
  at the last K-block (case C) likewise, and the output tile is left at the threshold of that accumulator.
  Every store covers its whole buffer, so each buffer ends at its last store's value.
-/
import proofs.«173487_j52493090291974_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First K-block: the accumulator ends at the update of the zeroed accumulator. -/
theorem scratch_A (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x w : Vec F S1024x1024 .f32) :
    sout0_A_0 c i a3 h3 a4 h4 a5 h5 a6 h6 hc0 hc1 x w = k0_pay2 x w (k0_pay1 (F := F)) := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle K-block: the accumulator ends at the update of what the point before left. -/
theorem scratch_B (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x w acc : Vec F S1024x1024 .f32) :
    sout0_B_0 c i a3 h3 a4 h4 a5 h5 a6 h6 hc0 hc1 x w acc = k0_pay2 x w acc := by
  unfold sout0_B_0
  rw [View.read_writes_eq_canon _ _ _ (scover0_B_0 c i a3 h3 a4 h4 a5 h5 a6 h6 hc0 hc1 x w acc)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

/-- The last K-block: the accumulator likewise … -/
theorem scratch_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x w acc : Vec F S1024x1024 .f32) :
    sout0_C_0 c i a3 h3 a4 h4 a5 h5 a6 h6 hc0 hc1 x w acc = k0_pay2 x w acc := by
  unfold sout0_C_0
  rw [View.read_writes_eq_canon _ _ _ (scover0_C_0 c i a3 h3 a4 h4 a5 h5 a6 h6 hc0 hc1 x w acc)]
  unfold kernelRun0_C
  dsimp only
  sl_unfold_words
  rw [View.canon_unit_zero (S := S1024x1024) hz]
  simp only [View.readAt_eq_ld, h3.read_unread, h4.read_unread, h6.read_unread, View.ld_unit_zero (S := S1024x1024) hz]

/-- … and the output tile ends at the epilogue of that accumulator. -/
theorem out_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x w acc : Vec F S1024x1024 .f32) :
    out0_C_2 c i a3 h3 a4 h4 a5 h5 a6 h6 hc0 hc1 x w acc = k0_pay3 (k0_pay2 x w acc) := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Cert.KernelIdeal.Pieces

end
-- ==== Proof.BlockSum.lean ====
/-
  A sum over an index range of length J·B, read as the sum, block by block, of the B-long block sums; and
  the one-bit word of a comparison read as a number: widened to 32 bits and read signed it is the bit read unsigned.
  These are the two facts that join a contraction accumulated K-block by K-block over 0/1 weights with the same
  contraction done at once.
-/
import Idealize.ShloMosaic.PureOps.Ideal
import Mathlib.Algebra.BigOperators.Fin
import Mathlib.Logic.Equiv.Fin.Basic

noncomputable section

open scoped BigOperators

namespace Conj

/-- A sum over `Fin (J * B)` of a function of the index's value is the sum over the J blocks of the block sums:
    index `k` is `B * s + kk` for exactly one block `s` and one offset `kk`. -/
theorem sum_blocks {M : Type*} [AddCommMonoid M] (J B : ℕ) (g : ℕ → M) :
    ∑ k : Fin (J * B), g k.val = ∑ s ∈ Finset.range J, ∑ kk : Fin B, g (B * s + kk.val) := by
  rw [← Fin.sum_univ_eq_sum_range (fun s => ∑ kk : Fin B, g (B * s + kk.val)) J,
    ← Equiv.sum_comp (finProdFinEquiv (m := J) (n := B)) (fun k => g k.val), Fintype.sum_prod_type]
  refine Finset.sum_congr rfl fun s _ => Finset.sum_congr rfl fun kk _ => ?_
  show g (kk.val + B * s.val) = g (B * s.val + kk.val)
  rw [Nat.add_comm]

/-- A one-bit word widened with zeros to 32 bits and read as a signed integer is the bit read unsigned. -/
theorem toInt_setWidth_bit (b : BitVec 1) : ((b.setWidth 32).toInt : ℝ) = (b.toNat : ℝ) := by
  rcases BitVec.eq_zero_or_eq_one b with rfl | rfl <;> simp

end Conj

end
-- ==== Proof.Spec.lean ====
/-
  The result both programs compute, as ONE function of the argument arrays x : [8192, 4096] and W : [4096, 2048]:

      out[r, c] = 0  if  Σ_k (1 - x[r, k]) · 1[W[k, c] > 1/2]  >  0,   else 1.

  Every product of the contraction is named by natural-number coordinates (`cell`), so that the kernel's K-blocked
  accumulation — grid point n = 8·i + 4·j + kb adds the products of K-block kb to tile (i, j) — and the reference's
  single contraction are sums of the SAME cells, in two groupings. Addition on the extended reals is commutative and
  associative, so the regrouping needs no finiteness.
-/
import Idealize.ShloMosaic.PureOps.Ideal
import Idealize.ShloMosaic.Lib.ValueIdx
import proofs.«173487_j52493090291974_1_alg».proof.Proof.BlockSum

noncomputable section

open scoped BigOperators

namespace Conj

open Idealize.ShloMosaic Idealize.ShloMosaic.ValueIdx

/-- `1 - x`, the literal being the word of 1.0. -/
def oneMinus (x : Ideal .f32) : Ideal .f32 := FloatOps.subf (FloatOps.ofBits .f32 0x3F800000#32) x

/-- The binarized weight: the bit of `w > 1/2` read as a number (0 or 1). -/
def gate (w : Ideal .f32) : Ideal .f32 :=
  FloatOps.uitofp .f32 (FloatOps.cmpf .ogt w (FloatOps.ofBits .f32 0x3F000000#32))

/-- The final threshold: 0 where the sum is above zero, else 1. -/
def quiet (s : Ideal .f32) : Ideal .f32 :=
  Scalar.select (FloatOps.cmpf .ogt s (FloatOps.ofBits .f32 0x00000000#32))
    (FloatOps.ofBits .f32 0x00000000#32 : Ideal .f32) (FloatOps.ofBits .f32 0x3F800000#32)

/-- One product of the contraction, `(1 - x[r, k]) · gate W[k, c]`, by natural-number coordinates (zero outside the
    arrays: never read there). -/
def cell (X : (⟨2, ![8192, 4096]⟩ : Shape).Idx → Ideal .f32) (W : (⟨2, ![4096, 2048]⟩ : Shape).Idx → Ideal .f32)
    (r c k : ℕ) : Ideal .f32 :=
  if h : r < 8192 ∧ c < 2048 ∧ k < 4096 then oneMinus (X (ix2 ⟨r, h.1⟩ ⟨k, h.2.2⟩)) * gate (W (ix2 ⟨k, h.2.2⟩ ⟨c, h.2.1⟩)) else 0

/-- The result array. -/
def G (X : (⟨2, ![8192, 4096]⟩ : Shape).Idx → Ideal .f32) (W : (⟨2, ![4096, 2048]⟩ : Shape).Idx → Ideal .f32) :
    (⟨2, ![8192, 2048]⟩ : Shape).Idx → Ideal .f32 :=
  fun i => quiet (∑ k : Fin 4096, cell X W (i 0).val (i 1).val k.val)

/-- The result at an index whose coordinates are known as numbers. -/
theorem G_at (X : (⟨2, ![8192, 4096]⟩ : Shape).Idx → Ideal .f32) (W : (⟨2, ![4096, 2048]⟩ : Shape).Idx → Ideal .f32)
    (i : (⟨2, ![8192, 2048]⟩ : Shape).Idx) (r c : ℕ) (hr : (i 0).val = r) (hc : (i 1).val = c) :
    G X W i = quiet (∑ k : Fin 4096, cell X W r c k.val) := by
  subst hr hc; rfl

/-- What grid point `n` adds to its output tile at local index `y`: the 1024 products of K-block `n % 4` for the row
    `1024·(n / 8) + y₀` and the column `1024·(n / 4 % 2) + y₁`. -/
def addend (X : (⟨2, ![8192, 4096]⟩ : Shape).Idx → Ideal .f32) (W : (⟨2, ![4096, 2048]⟩ : Shape).Idx → Ideal .f32)
    (n : ℕ) (y : (⟨2, ![1024, 1024]⟩ : Shape).Idx) : Ideal .f32 :=
  ∑ kk : Fin 1024, cell X W (1024 * (n / 8) + (y 0).val) (1024 * (n / 4 % 2) + (y 1).val) (1024 * (n % 4) + kk.val)

/-- The four addends of a tile's run of points `b, b+1, b+2, b+3` (`b` a multiple of 4) are together the whole
    contraction for the tile's element: the K-blocks partition the contraction index. -/
theorem sum_addend (X : (⟨2, ![8192, 4096]⟩ : Shape).Idx → Ideal .f32) (W : (⟨2, ![4096, 2048]⟩ : Shape).Idx → Ideal .f32)
    (b : ℕ) (hb : b % 4 = 0) (y : (⟨2, ![1024, 1024]⟩ : Shape).Idx) :
    ∑ s ∈ Finset.range 4, addend X W (b + s) y
      = ∑ k : Fin 4096, cell X W (1024 * (b / 8) + (y 0).val) (1024 * (b / 4 % 2) + (y 1).val) k.val := by
  refine Eq.trans ?_ (sum_blocks 4 1024 (fun k => cell X W (1024 * (b / 8) + (y 0).val) (1024 * (b / 4 % 2) + (y 1).val) k)).symm
  refine Finset.sum_congr rfl fun s hs => ?_
  have hs4 : s < 4 := Finset.mem_range.mp hs
  unfold addend
  rw [show (b + s) / 8 = b / 8 by omega, show (b + s) / 4 % 2 = b / 4 % 2 by omega, show (b + s) % 4 = s by omega]

end Conj

end
-- ==== Proof.Payload.lean ====
/-
  The kernel body's three stored values, read at an element of the 1024 × 1024 tile, on the extended reals:
  the reset stores zero; the update stores `acc + Σ_kk (1 - x[p, kk]) · gate w[kk, q]` (the bf16 casts are the
  identity, the matrix unit's product into a zero accumulator is the plain sum, and the weight's bit, widened and read
  signed, is the bit read unsigned); the epilogue stores the threshold of the accumulator.
-/
import proofs.«173487_j52493090291974_1_alg».proof.Proof.Gen.KernelIdeal.Skeleton
import proofs.«173487_j52493090291974_1_alg».proof.Proof.Spec
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The reset's value is zero everywhere. -/
theorem reset_apply (y : S1024x1024.Idx) : k0_pay1 (F := Ideal) y = 0 := by
  unfold k0_pay1
  rw [shapeCast_self]
  exact Ideal.ofBits_zero_f32

/-- The weight's bit as the kernel converts it (compare, widen with zeros, read signed) is the specification's gate
    (compare, read unsigned). -/
theorem gate_eq (w : Ideal .f32) :
    FloatOps.sitofp (F := Ideal) .f32 ((FloatOps.cmpf .ogt w (Scalar.ofBits (F := Ideal) .f32 0x3F000000#32)).setWidth 32) = Conj.gate w := by
  show (((FloatOps.cmpf .ogt w (Scalar.ofBits (F := Ideal) .f32 0x3F000000#32)).setWidth 32).toInt : ℝ)
    = ((((FloatOps.cmpf .ogt w (FloatOps.ofBits (F := Ideal) .f32 0x3F000000#32)).toNat : ℝ) : ℝ) : EReal)
  exact congrArg _ (Conj.toInt_setWidth_bit _)

/-- The matrix product's left operand index at output (p, q): row p on axis 0 … -/
theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and the contraction coordinate on axis 1; -/
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand's: the contraction coordinate on axis 0 … -/
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and column q on axis 1. -/
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The tile product into a zero accumulator, at (p, q): the sum over the K-block's 1024 offsets of left (p, kk) times
    right (kk, q). -/
theorem tile_dot_apply (l r : FVec Ideal S1024x1024 .bf16) (p q : Fin 1024) :
    matmul dot_S1024x1024_S1024x1024_S1024x1024_1_0_0_1_n_n none l r (constant S1024x1024 .f32 0x00000000#32) (ix2 p q)
      = ∑ kk : Fin 1024, l (ix2 p kk) * r (ix2 kk q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- The update's value at (p, q): what the accumulator held there plus the K-block's 1024 products. -/
theorem update_apply (x w acc : Vec Ideal S1024x1024 .f32) (p q : Fin 1024) :
    k0_pay2 (F := Ideal) x w acc (ix2 p q)
      = acc (ix2 p q) + ∑ kk : Fin 1024, Conj.oneMinus (x (ix2 p kk)) * Conj.gate (w (ix2 kk q)) := by
  unfold k0_pay2
  rw [shapeCast_self]
  show acc (ix2 p q) + matmul (F := Ideal) dot_S1024x1024_S1024x1024_S1024x1024_1_0_0_1_n_n none _ _ (constant S1024x1024 .f32 0x00000000#32) (ix2 p q) = _
  rw [tile_dot_apply]
  refine congrArg (acc (ix2 p q) + ·) (Finset.sum_congr rfl fun kk _ => ?_)
  show Conj.oneMinus (x (ix2 p kk)) * _ = _
  exact congrArg (Conj.oneMinus (x (ix2 p kk)) * ·) (gate_eq (w (ix2 kk q)))

/-- The epilogue's value: the threshold of the accumulator, element by element. -/
theorem epilogue_apply (acc : Vec Ideal S1024x1024 .f32) (y : S1024x1024.Idx) :
    k0_pay3 (F := Ideal) acc y = Conj.quiet (acc y) := rfl

end Cert.KernelIdeal.Pay

end
-- ==== Proof.Tile.lean ====
/-
  The kernel's result array. Grid point t = 8·i + 4·j + kb handles output tile (i, j) and K-block kb: it reads
  x's block (i, kb) and W's block (kb, j), and its accumulator ends at what the point before left plus the K-block's
  products (from zero at kb = 0). So after point t the accumulator at (p, q) is the sum over the K-blocks 0 … kb of
  their products for row 1024·i + p and column 1024·j + q; at kb = 3 that is the whole contraction, the tile written
  back is the threshold of it, i.e. tile (i, j) of the specification `Conj.G`; and the sixteen tiles cover the array.
-/
import proofs.«173487_j52493090291974_1_alg».proof.Proof.Gen.KernelIdeal.Value
import proofs.«173487_j52493090291974_1_alg».proof.Proof.Pieces
import proofs.«173487_j52493090291974_1_alg».proof.Proof.Payload
import proofs.«173487_j52493090291974_1_alg».proof.Proof.Spec
import Idealize.ShloMosaic.Lib.Pipeline.Value

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The argument arrays, and the two input blocks at a point, at their literal types. -/
abbrev xarr (c : Dev nD) : Vec Ideal S8192x4096 .f32 := m ((c : Thread nD τ).loc main_arg0)
abbrev warr (c : Dev nD) : Vec Ideal S4096x2048 .f32 := m ((c : Thread nD τ).loc main_arg1)
abbrev xblk (c : Dev nD) (t : Fin cfg0.N) : Vec Ideal S1024x1024 .f32 := iblk m c 0 t
abbrev wblk (c : Dev nD) (t : Fin cfg0.N) : Vec Ideal S1024x1024 .f32 := iblk m c 1 t

/-- The three index maps over the grid: point t is tile row t / 8, tile column t / 4 % 2, K-block t % 4. -/
theorem idx_facts : ∀ t : Fin cfg0.N,
    win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = t.val / 8 ∧ win0_2.index t (1 : Fin 2) = t.val / 4 % 2 :=
  (by decide +kernel : ∀ t : Fin grid0.N, _)

/-- x's block at point t, at (p, kk), is x at row 1024·(t / 8) + p and column 1024·(t % 4) + kk. -/
theorem xblk_apply (c : Dev nD) (t : Fin cfg0.N) (p kk : Fin 1024) (r : Fin 8192) (k : Fin 4096)
    (hr : r.val = 1024 * (t.val / 8) + p.val) (hk : k.val = 1024 * (t.val % 4) + kk.val) :
    xblk m c t (ix2 p kk) = xarr m c (ix2 r k) := by
  obtain ⟨e0, e1, -, -, -, -⟩ := idx_facts t
  show iblk m c 0 t (ix2 p kk) = _
  unfold iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * kk.val = k.val; rw [e1, hk]; omega

/-- W's block at point t, at (kk, q), is W at row 1024·(t % 4) + kk and column 1024·(t / 4 % 2) + q. -/
theorem wblk_apply (c : Dev nD) (t : Fin cfg0.N) (kk q : Fin 1024) (k : Fin 4096) (cc : Fin 2048)
    (hk : k.val = 1024 * (t.val % 4) + kk.val) (hc : cc.val = 1024 * (t.val / 4 % 2) + q.val) :
    wblk m c t (ix2 kk q) = warr m c (ix2 k cc) := by
  obtain ⟨-, -, e0, e1, -, -⟩ := idx_facts t
  show iblk m c 1 t (ix2 kk q) = _
  unfold iblk
  rw [View.read_apply]
  show V m c main_arg1 _ = m ((c : Thread nD τ).loc main_arg1) _
  refine congrArg (m ((c : Thread nD τ).loc main_arg1)) (funext fun a => Fin.ext ?_)
  match a with
  | ⟨0, _⟩ => show win0_1.index t (0 : Fin 2) * 1024 + 1 * kk.val = k.val; rw [e0, hk]; omega
  | ⟨1, _⟩ => show win0_1.index t (1 : Fin 2) * 1024 + 1 * q.val = cc.val; rw [e1, hc]; omega

/-- The K-block's products at point t, over the blocks, are the specification's addend of point t. -/
theorem addend_eq (c : Dev nD) (t : Fin cfg0.N) (p q : Fin 1024) :
    ∑ kk : Fin 1024, Conj.oneMinus (xblk m c t (ix2 p kk)) * Conj.gate (wblk m c t (ix2 kk q))
      = Conj.addend (xarr m c) (warr m c) t.val (ix2 p q) := by
  have hN : t.val < 64 := lt_of_lt_of_eq t.isLt (show cfg0.N = 64 from N_0)
  have hp := p.isLt
  have hq := q.isLt
  unfold Conj.addend
  refine Finset.sum_congr rfl fun kk _ => ?_
  have hkk := kk.isLt
  unfold Conj.cell
  show _ = dite (1024 * (t.val / 8) + p.val < 8192 ∧ 1024 * (t.val / 4 % 2) + q.val < 2048 ∧ 1024 * (t.val % 4) + kk.val < 4096) _ _
  rw [dif_pos ⟨by omega, by omega, by omega⟩]
  rw [xblk_apply m c t p kk ⟨1024 * (t.val / 8) + p.val, by omega⟩ ⟨1024 * (t.val % 4) + kk.val, by omega⟩ rfl rfl,
    wblk_apply m c t kk q ⟨1024 * (t.val % 4) + kk.val, by omega⟩ ⟨1024 * (t.val / 4 % 2) + q.val, by omega⟩ rfl rfl]

/-- At a tile's first K-block the accumulator ends at the update of zero, whatever it held; -/
theorem step_first (c : Dev nD) (n : ℕ) (h : n < cfg0.N) (h0 : n % 4 = 0) (acc : Vec Ideal S1024x1024 .f32) :
    Value.scAt0_0 m c n h acc = k0_pay2 (xblk m c ⟨n, h⟩) (wblk m c ⟨n, h⟩) (k0_pay1 (F := Ideal)) := by
  have h1 : ¬n % 4 = 3 := by omega
  unfold Value.scAt0_0
  rw [dif_pos h0, dif_neg h1]
  exact Pieces.scratch_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) _ _ (iblk m c 0 (⟨n, h⟩ : Fin cfg0.N)) (iblk m c 1 (⟨n, h⟩ : Fin cfg0.N))

/-- at every later one, at the update of what the point before left. -/
theorem step_later (c : Dev nD) (n : ℕ) (h : n < cfg0.N) (h0 : ¬n % 4 = 0) (acc : Vec Ideal S1024x1024 .f32) :
    Value.scAt0_0 m c n h acc = k0_pay2 (xblk m c ⟨n, h⟩) (wblk m c ⟨n, h⟩) acc := by
  unfold Value.scAt0_0
  rw [dif_neg h0]
  by_cases h1 : n % 4 = 3
  · rw [dif_pos h1]
    exact Pieces.scratch_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) _ _ (iblk m c 0 (⟨n, h⟩ : Fin cfg0.N)) (iblk m c 1 (⟨n, h⟩ : Fin cfg0.N)) acc
  · rw [dif_neg h1]
    exact Pieces.scratch_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) _ _ (iblk m c 0 (⟨n, h⟩ : Fin cfg0.N)) (iblk m c 1 (⟨n, h⟩ : Fin cfg0.N)) acc

/-- THE ACCUMULATOR after point t, at (p, q): the addends of the tile's points up to t, from zero. -/
theorem scratch_after (c : Dev nD) (t : Fin cfg0.N) (y : S1024x1024.Idx) :
    (outsAt0 m c t.val t.isLt).2 y
      = 0 + ∑ s ∈ Finset.range (t.val % 4 + 1), Conj.addend (xarr m c) (warr m c) (4 * (t.val / 4) + s) y := by
  rw [Value.soutsAt0_0_eq m c t]
  refine Pipeline.accAt_add_apply (ι := S1024x1024.Idx) (β := EReal) _ _ (fun _ => 0)
    (fun n y => Conj.addend (xarr m c) (warr m c) n y) (4 * (t.val / 4)) 3 ?_ ?_ (t.val % 4) (by omega) _ y
  · intro h i
    obtain ⟨p, q, rfl⟩ : ∃ (p q : Fin 1024), i = ix2 p q := ⟨i 0, i 1, eq_ix2 i⟩
    rw [step_first m c _ h (by omega)]
    refine (Pay.update_apply _ _ _ p q).trans ?_
    rw [Pay.reset_apply, addend_eq m c ⟨4 * (t.val / 4), h⟩ p q]
  · intro n h acc i hlo hhi
    obtain ⟨p, q, rfl⟩ : ∃ (p q : Fin 1024), i = ix2 p q := ⟨i 0, i 1, eq_ix2 i⟩
    rw [step_later m c n h (by omega) acc]
    refine (Pay.update_apply _ _ _ p q).trans ?_
    rw [addend_eq m c ⟨n, h⟩ p q]

/-- At a tile's last K-block the accumulator the epilogue reads is the accumulator after that point. -/
theorem scratch_last (c : Dev nD) (t : Fin cfg0.N) (h0 : ¬t.val % 4 = 0) (h3 : t.val % 4 = 3) :
    k0_pay2 (xblk m c t) (wblk m c t) (outsAt0 m c (t.val - 1) (Nat.lt_of_le_of_lt (Nat.sub_le _ _) t.isLt)).2
      = (outsAt0 m c t.val t.isLt).2 := by
  rw [outsAt0_C m c t h0 h3]
  dsimp only
  exact (Pieces.scratch_C (F := Ideal) c (grid0.coords t) (ms0_0 t) (hs0_0 t) (ms0_1 t) (hs0_1 t) (ms0_2 t) (hs0_2 t) scM0_0 (Memref.isWhole_whole _) _ _ (iblk m c 0 t) (iblk m c 1 t)
    (outsAt0 m c (t.val - 1) (Nat.lt_of_le_of_lt (Nat.sub_le _ _) t.isLt)).2).symm

/-- WHAT A TILE'S LAST POINT WRITES BACK is that tile of the specification. -/
theorem flushed_eq (c : Dev nD) (t : Fin cfg0.N) (hf : (cfg0.win 2).flush t = true) :
    (dats m 0 c).flushed 2 t = ((cfg0.win 2).blk t).view.read (Elt Ideal) (Conj.G (xarr m c) (warr m c)) := by
  have h3 : t.val % 4 = 3 := (flush0_2 t).mp hf
  have h0 : ¬t.val % 4 = 0 := by omega
  have hN : t.val < 64 := lt_of_lt_of_eq t.isLt (show cfg0.N = 64 from N_0)
  obtain ⟨-, -, -, -, e0, e1⟩ := idx_facts t
  rw [Value.flushed2_C m c t h0 h3,
    Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t)
      (outsAt0 m c (t.val - 1) (Nat.lt_of_le_of_lt (Nat.sub_le _ _) t.isLt)).2]
  funext y
  obtain ⟨p, q, rfl⟩ : ∃ (p q : Fin 1024), y = ix2 p q := ⟨y 0, y 1, eq_ix2 y⟩
  rw [View.read_apply]
  show Conj.quiet (k0_pay2 (xblk m c t) (wblk m c t) (outsAt0 m c (t.val - 1) (Nat.lt_of_le_of_lt (Nat.sub_le _ _) t.isLt)).2 (ix2 p q)) = _
  rw [scratch_last m c t h0 h3, scratch_after m c t (ix2 p q), h3, zero_add,
    Conj.sum_addend (xarr m c) (warr m c) (4 * (t.val / 4)) (by omega) (ix2 p q)]
  refine (Conj.G_at (xarr m c) (warr m c) _ _ _ ?_ ?_).symm
  · show win0_2.index t (0 : Fin 2) * 1024 + 1 * p.val = 1024 * (4 * (t.val / 4) / 8) + p.val
    rw [e0]; omega
  · show win0_2.index t (1 : Fin 2) * 1024 + 1 * q.val = 1024 * (4 * (t.val / 4) / 4 % 2) + q.val
    rw [e1]; omega

/-- An index of the result array is in point t's tile iff each coordinate is in the tile's range on its axis. -/
theorem mem_tile (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result array is in the tile some last-K-block point writes back. -/
theorem cover (i : S8192x2048.Idx) : ∃ t : Fin cfg0.N, (cfg0.win 2).flush t = true ∧ i ∈ ((cfg0.win 2).blk t).view.set := by
  have hi0 : (i 0).val < 8192 := idx2_lt0 i
  have hi1 : (i 1).val < 2048 := idx2_lt1 i
  have hN : cfg0.N = 64 := N_0
  let t : Fin cfg0.N := ⟨8 * ((i 0).val / 1024) + 4 * ((i 1).val / 1024) + 3, by rw [hN]; omega⟩
  have htv : t.val = 8 * ((i 0).val / 1024) + 4 * ((i 1).val / 1024) + 3 := rfl
  obtain ⟨-, -, -, -, e0, e1⟩ := idx_facts t
  refine ⟨t, (flush0_2 t).mpr (by rw [htv]; omega), ?_⟩
  rw [mem_tile]
  intro a
  match a with
  | ⟨0, _⟩ => show win0_2.index t (0 : Fin 2) * 1024 ≤ (i 0).val ∧ (i 0).val < win0_2.index t (0 : Fin 2) * 1024 + 1024
              rw [e0, htv]; omega
  | ⟨1, _⟩ => show win0_2.index t (1 : Fin 2) * 1024 ≤ (i 1).val ∧ (i 1).val < win0_2.index t (1 : Fin 2) * 1024 + 1024
              rw [e1, htv]; omega

/-- THE RESULT ARRAY after the run is the specification of the argument arrays. -/
theorem final (c : Dev nD) : (dats m 0 c).arrAt 2 cfg0.N = Conj.G (xarr m c) (warr m c) :=
  (dats m 0 c).arrAt_eq_of_cover 2 (Conj.G (xarr m c) (warr m c)) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v0) = Conj.G (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tile

end
-- ==== Proof.RefIsSpec.lean ====
/-
  The reference's result, read operation by operation at an index, is the specification `Conj.G`:
  `where((1 - x) @ 1[W > 1/2] > 0, 0, 1)` at (r, c) thresholds the sum over k of the cells (r, c, k).
-/
import proofs.«173487_j52493090291974_1_alg».proof.Proof.Gen.ReferenceIdeal.Read
import proofs.«173487_j52493090291974_1_alg».proof.Proof.Spec

noncomputable section

open scoped BigOperators

namespace Cert.ReferenceIdeal.RefSpec

open Cert.ReferenceIdeal Cert.ReferenceIdeal.Read Idealize.ShloMosaic Idealize.ShloMosaic.ValueIdx

/-- The left operand's index at output (r, c) and contraction index k is (r, k). -/
theorem lidx_eq (i : S8192x2048.Idx) (k : Fin 4096) :
    lidx_main_v5 i k = ix2 (⟨(i 0).val, idx2_lt0 i⟩ : Fin 8192) (⟨k.val, k.isLt⟩ : Fin 4096) :=
  funext fun a => by match a with | ⟨0, _⟩ => rfl | ⟨1, _⟩ => rfl

/-- The right operand's index is (k, c). -/
theorem ridx_eq (i : S8192x2048.Idx) (k : Fin 4096) :
    ridx_main_v5 i k = ix2 (⟨k.val, k.isLt⟩ : Fin 4096) (⟨(i 1).val, idx2_lt1 i⟩ : Fin 2048) :=
  funext fun a => by match a with | ⟨0, _⟩ => rfl | ⟨1, _⟩ => rfl

/-- The reference's last stage is the specification. -/
theorem ref_eq (X : (⟨S8192x4096, .f32⟩ : BufTy).Contents (Elt Ideal)) (W : (⟨S4096x2048, .f32⟩ : BufTy).Contents (Elt Ideal)) :
    val_main_v8 (F := Ideal) X W = Conj.G X W := by
  funext i
  rw [val_main_v8_apply, val_main_v7_apply, val_main_v5_apply, val_main_v6_apply, val_main_cst_1_apply,
    val_main_call0_v0_apply, val_main_cst_2_apply, val_main_call0_v1_apply, val_main_cst_3_apply]
  unfold Conj.G Conj.quiet
  refine congrArg (fun s => Scalar.select (FloatOps.cmpf .ogt s (FloatOps.ofBits .f32 0x00000000#32))
    (FloatOps.ofBits .f32 0x00000000#32 : Ideal .f32) (FloatOps.ofBits .f32 0x3F800000#32)) ?_
  refine Finset.sum_congr rfl fun k _ => ?_
  unfold Conj.cell
  rw [dif_pos ⟨idx2_lt0 i, idx2_lt1 i, k.isLt⟩, val_main_v4_apply, val_main_v3_apply, val_main_cst_0_apply,
    val_main_v2_apply, val_main_v1_apply, val_main_v0_apply, val_main_cst_apply, lidx_eq, ridx_eq]
  rfl

end Cert.ReferenceIdeal.RefSpec

end
-- ==== Proof.lean ====
/-
  The certificate of a binarized conjunction layer: out = 1[(1 - x) @ 1[W > 1/2] ≤ 0] for x : [8192, 4096] and
  W : [4096, 2048].

  The kernel tiles the output into sixteen 1024 × 1024 tiles and the contraction into four K-blocks of 1024; on a grid
  (8, 2, 4) it keeps a tile's partial sums in an accumulator that it zeroes at K-block 0, adds each K-block's products
  to (a bf16 product of `1 - x` and the 0/1 weights, accumulated in f32), and thresholds into the output tile at
  K-block 3. The reference does the whole contraction at once and thresholds. On the extended reals the format changes
  are the identity and every product is exact, so both results at (r, c) are the threshold of sums of the same 4096
  products `(1 - x[r, k]) · 1[W[k, c] > 1/2]`: grouped four by 1024 from zero on the kernel's side, ungrouped on the
  reference's. Addition on the extended reals is commutative and associative, so the two sums agree with no appeal
  to finiteness of the inputs.

  frame_Kernel, frame_KernelIdeal: the generated frames. frame_ReferenceIdeal: the reference's generated run with the
  result dropped. preserves: the idealization rewrote nothing. algebraic: the kernel's run ends at the specification
  `Conj.G` of the arguments (Proof/Tile.lean, over Proof/Pieces.lean, Proof/Payload.lean and the block-sum law of
  Proof/BlockSum.lean and Proof/Spec.lean), and the reference's run at the same (Proof/RefIsSpec.lean).
-/
import proofs.«173487_j52493090291974_1_alg».proof.Defs
import proofs.«173487_j52493090291974_1_alg».proof.Proof.Gen.Kernel
import proofs.«173487_j52493090291974_1_alg».proof.Proof.Gen.Kernel.Skeleton
import proofs.«173487_j52493090291974_1_alg».proof.Proof.Gen.Kernel.Launch
import proofs.«173487_j52493090291974_1_alg».proof.Proof.Gen.Kernel.Points
import proofs.«173487_j52493090291974_1_alg».proof.Proof.Gen.Kernel.Frame
import proofs.«173487_j52493090291974_1_alg».proof.Proof.Gen.KernelIdeal
import proofs.«173487_j52493090291974_1_alg».proof.Proof.Gen.KernelIdeal.Skeleton
import proofs.«173487_j52493090291974_1_alg».proof.Proof.Gen.KernelIdeal.Launch
import proofs.«173487_j52493090291974_1_alg».proof.Proof.Gen.KernelIdeal.Points
import proofs.«173487_j52493090291974_1_alg».proof.Proof.Gen.KernelIdeal.Frame
import proofs.«173487_j52493090291974_1_alg».proof.Proof.Gen.ReferenceIdeal
import proofs.«173487_j52493090291974_1_alg».proof.Proof.Gen.Pre_finite_inputs
import proofs.«173487_j52493090291974_1_alg».proof.Proof.Gen.KernelIdeal.Value
import proofs.«173487_j52493090291974_1_alg».proof.Proof.Gen.ReferenceIdeal.Run
import proofs.«173487_j52493090291974_1_alg».proof.Proof.Gen.ReferenceIdeal.Read
import proofs.«173487_j52493090291974_1_alg».proof.Proof.Tile
import proofs.«173487_j52493090291974_1_alg».proof.Proof.RefIsSpec
import Idealize.ShloMosaic.Adequacy
import Idealize.ShloMosaic.Init

noncomputable section

namespace Cert.Proof

open Idealize.ShloMosaic Idealize.SL.Sem

/-- The word-level kernel terminates without fault and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification of their (agreeing) arguments in the result array. -/
theorem algebraic : Cert.algebraic_KernelIdeal_ReferenceIdeal := by
  intro m ρ m' ρ' _ hagree
  refine ⟨fun c => Conj.G (Cert.KernelIdeal.Tile.xarr m c) (Cert.KernelIdeal.Tile.warr m c), Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefSpec.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
